-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x384x32x32 : Shape := ⟨4, ![32, 384, 32, 32]⟩
abbrev S384x3x3 : Shape := ⟨3, ![384, 3, 3]⟩
abbrev S_ : Shape := ⟨0, ![]⟩

class Facts : Prop where
  bcast_S_S32x384x32x32 : S_.BroadcastsInDim S32x384x32x32 (![] : Fin 0 → Fin S32x384x32x32.rank)
  reducesTo_S32x384x32x32_S_d0_1_2_3 : S32x384x32x32.ReducesTo [0, 1, 2, 3] S_
  h_S_ : 0 < S_.numel
  bcast_S_S384x3x3 : S_.BroadcastsInDim S384x3x3 (![] : Fin 0 → Fin S384x3x3.rank)
  reducesTo_S384x3x3_S_d0_1_2 : S384x3x3.ReducesTo [0, 1, 2] S_

variable [Facts]

def fn {F : FTy → Type} [FloatOps F] (main_arg0 : FVec F S32x384x32x32 .f32) (main_arg1 : FVec F S384x3x3 .f32) : IVec S_ 1 :=
  let main_v0 : FVec F S32x384x32x32 .f32 := Host.absf main_arg0
  let main_cst : FVec F S_ .f32 := constant S_ .f32 0x7F800000#32
  let main_v1 : FVec F S32x384x32x32 .f32 := broadcastInDim S32x384x32x32 ![] bcast_S_S32x384x32x32 main_cst
  let main_v2 : IVec S32x384x32x32 1 := cmpf .olt main_v0 main_v1
  let main_c : IVec S_ 1 := constantI S_ 1 1#1
  let main_v3 : IVec S_ 1 := (fun x v => Host.reduce IntOp.andi x v reducesTo_S32x384x32x32_S_d0_1_2_3 h_S_) main_v2 main_c
  let main_v4 : FVec F S384x3x3 .f32 := Host.absf main_arg1
  let main_cst_0 : FVec F S_ .f32 := constant S_ .f32 0x7F800000#32
  let main_v5 : FVec F S384x3x3 .f32 := broadcastInDim S384x3x3 ![] bcast_S_S384x3x3 main_cst_0
  let main_v6 : IVec S384x3x3 1 := cmpf .olt main_v4 main_v5
  let main_c_1 : IVec S_ 1 := constantI S_ 1 1#1
  let main_v7 : IVec S_ 1 := (fun x v => Host.reduce IntOp.andi x v reducesTo_S384x3x3_S_d0_1_2 h_S_) main_v6 main_c_1
  let main_v8 : IVec S_ 1 := andi main_v3 main_v7
  main_v8
-- ==== Kernel.lean ====
abbrev S32x384x32x32 : Shape := ⟨4, ![32, 384, 32, 32]⟩
abbrev S384x3x3 : Shape := ⟨3, ![384, 3, 3]⟩
abbrev S32x32x32x384 : Shape := ⟨4, ![32, 32, 32, 384]⟩
abbrev S_ : Shape := ⟨0, ![]⟩
abbrev S32x34x34x384 : Shape := ⟨4, ![32, 34, 34, 384]⟩
abbrev S1x34x34x384 : Shape := ⟨4, ![1, 34, 34, 384]⟩
abbrev S1x32x32x384 : Shape := ⟨4, ![1, 32, 32, 384]⟩
abbrev S32x32x384 : Shape := ⟨3, ![32, 32, 384]⟩
abbrev S384x1x1 : Shape := ⟨3, ![384, 1, 1]⟩
abbrev S384 : Shape := ⟨1, ![384]⟩
abbrev S1x1x384 : Shape := ⟨3, ![1, 1, 384]⟩

abbrev nBuf : Space → Nat
  | .hbm => 8
  | .vmem => 5
  | .smem => 0
  | _ => 0

abbrev bufTy : (tb : Table) → Fin (tcTables nBuf tb) → BufTy
  | .hbm, ⟨0, _⟩ => ⟨S32x384x32x32, .f32⟩
  | .hbm, ⟨1, _⟩ => ⟨S384x3x3, .f32⟩
  | .hbm, ⟨2, _⟩ => ⟨S32x32x32x384, .f32⟩
  | .hbm, ⟨3, _⟩ => ⟨S_, .i32⟩
  | .hbm, ⟨4, _⟩ => ⟨S_, .f32⟩
  | .hbm, ⟨5, _⟩ => ⟨S32x34x34x384, .f32⟩
  | .hbm, ⟨6, _⟩ => ⟨S32x32x32x384, .f32⟩
  | .hbm, ⟨7, _⟩ => ⟨S32x384x32x32, .f32⟩
  | .local _ .vmem, ⟨0, _⟩ => ⟨S1x34x34x384, .f32⟩
  | .local _ .vmem, ⟨1, _⟩ => ⟨S1x34x34x384, .f32⟩
  | .local _ .vmem, ⟨2, _⟩ => ⟨S384x3x3, .f32⟩
  | .local _ .vmem, ⟨3, _⟩ => ⟨S1x32x32x384, .f32⟩
  | .local _ .vmem, ⟨4, _⟩ => ⟨S1x32x32x384, .f32⟩
  | _, _ => ⟨S32x384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x34x34x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x32x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S32x384x32x32_S32x32x32x384_0_2_3_1 : S32x384x32x32.Transposes [0, 2, 3, 1] S32x32x32x384
  pads_S32x32x32x384_S32x34x34x384_000_110_110_000 : S32x32x32x384.Pads (![0, 1, 1, 0] : Fin 4 → Nat) ![0, 1, 1, 0] ![0, 0, 0, 0] S32x34x34x384
  h_S_ : 0 < S_.numel
  inb_S384x3x3_S384x3x3_0_0_0 : ∀ a, (![0, 0, 0] : Fin 3 → Nat) a + S384x3x3.size a ≤ S384x3x3.size a
  h_S384x3x3 : 0 < S384x3x3.numel
  slices_S384x3x3_o0_0_0_S384x1x1 : S384x3x3.Slices ![0, 0, 0] S384x1x1
  shapeCasts_S384x1x1_S384 : S384x1x1.ShapeCasts S384
  shapeCasts_S384_S1x1x384 : S384.ShapeCasts S1x1x384
  inb_S1x34x34x384_S1x32x32x384_0_0_0_0 : ∀ a, (![0, 0, 0, 0] : Fin 4 → Nat) a + S1x32x32x384.size a ≤ S1x34x34x384.size a
  h_S1x32x32x384 : 0 < S1x32x32x384.numel
  shapeCasts_S1x32x32x384_S32x32x384 : S1x32x32x384.ShapeCasts S32x32x384
  broadcasts_S1x1x384_S32x32x384 : S1x1x384.Broadcasts S32x32x384
  slices_S384x3x3_o0_0_1_S384x1x1 : S384x3x3.Slices ![0, 0, 1] S384x1x1
  inb_S1x34x34x384_S1x32x32x384_0_0_1_0 : ∀ a, (![0, 0, 1, 0] : Fin 4 → Nat) a + S1x32x32x384.size a ≤ S1x34x34x384.size a
  slices_S384x3x3_o0_0_2_S384x1x1 : S384x3x3.Slices ![0, 0, 2] S384x1x1
  inb_S1x34x34x384_S1x32x32x384_0_0_2_0 : ∀ a, (![0, 0, 2, 0] : Fin 4 → Nat) a + S1x32x32x384.size a ≤ S1x34x34x384.size a
  slices_S384x3x3_o0_1_0_S384x1x1 : S384x3x3.Slices ![0, 1, 0] S384x1x1
  inb_S1x34x34x384_S1x32x32x384_0_1_0_0 : ∀ a, (![0, 1, 0, 0] : Fin 4 → Nat) a + S1x32x32x384.size a ≤ S1x34x34x384.size a
  slices_S384x3x3_o0_1_1_S384x1x1 : S384x3x3.Slices ![0, 1, 1] S384x1x1
  inb_S1x34x34x384_S1x32x32x384_0_1_1_0 : ∀ a, (![0, 1, 1, 0] : Fin 4 → Nat) a + S1x32x32x384.size a ≤ S1x34x34x384.size a
  slices_S384x3x3_o0_1_2_S384x1x1 : S384x3x3.Slices ![0, 1, 2] S384x1x1
  inb_S1x34x34x384_S1x32x32x384_0_1_2_0 : ∀ a, (![0, 1, 2, 0] : Fin 4 → Nat) a + S1x32x32x384.size a ≤ S1x34x34x384.size a
  slices_S384x3x3_o0_2_0_S384x1x1 : S384x3x3.Slices ![0, 2, 0] S384x1x1
  inb_S1x34x34x384_S1x32x32x384_0_2_0_0 : ∀ a, (![0, 2, 0, 0] : Fin 4 → Nat) a + S1x32x32x384.size a ≤ S1x34x34x384.size a
  slices_S384x3x3_o0_2_1_S384x1x1 : S384x3x3.Slices ![0, 2, 1] S384x1x1
  inb_S1x34x34x384_S1x32x32x384_0_2_1_0 : ∀ a, (![0, 2, 1, 0] : Fin 4 → Nat) a + S1x32x32x384.size a ≤ S1x34x34x384.size a
  slices_S384x3x3_o0_2_2_S384x1x1 : S384x3x3.Slices ![0, 2, 2] S384x1x1
  inb_S1x34x34x384_S1x32x32x384_0_2_2_0 : ∀ a, (![0, 2, 2, 0] : Fin 4 → Nat) a + S1x32x32x384.size a ≤ S1x34x34x384.size a
  inb_S1x32x32x384_S1x32x32x384_0_0_0_0 : ∀ a, (![0, 0, 0, 0] : Fin 4 → Nat) a + S1x32x32x384.size a ≤ S1x32x32x384.size a
  shapeCasts_S32x32x384_S1x32x32x384 : S32x32x384.ShapeCasts S1x32x32x384
  transposes_S32x32x32x384_S32x384x32x32_0_3_1_2 : S32x32x32x384.Transposes [0, 3, 1, 2] S32x384x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x34x34x384.size a ≤ S32x34x34x384.size a
  hwx0_0 : ∀ i : grid0.Coords, EltTy.bits .f32 = 32 ∨ (Rect.block (s := S32x34x34x384) S1x34x34x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x3x3.size a ≤ S384x3x3.size a
  hwx0_1 : ∀ i : grid0.Coords, EltTy.bits .f32 = 32 ∨ (Rect.block (s := S384x3x3) S384x3x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x32x384.size a ≤ S32x32x32x384.size a
  hwx0_2 : ∀ i : grid0.Coords, EltTy.bits .f32 = 32 ∨ (Rect.block (s := S32x32x32x384) S1x32x32x384.size (cc0_transform_2 i) (hinb0_2 i)).WholeWords (EltTy.packing .f32)

variable [Facts₀]

abbrev win0_0 : Pipeline.Window sig grid0 :=
  Pipeline.Window.ofSpec (Memref.whole main_v1) S1x34x34x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S384x3x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x32x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x384x32x32 : Shape := ⟨4, ![32, 384, 32, 32]⟩
abbrev S384x3x3 : Shape := ⟨3, ![384, 3, 3]⟩
abbrev S_ : Shape := ⟨0, ![]⟩
abbrev S32x384x34x34 : Shape := ⟨4, ![32, 384, 34, 34]⟩
abbrev S384x1x1 : Shape := ⟨3, ![384, 1, 1]⟩
abbrev S384 : Shape := ⟨1, ![384]⟩
abbrev S1x384x1x1 : Shape := ⟨4, ![1, 384, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S32x384x32x32, .f32⟩
  | .hbm, ⟨1, _⟩ => ⟨S384x3x3, .f32⟩
  | .hbm, ⟨2, _⟩ => ⟨S_, .i32⟩
  | .hbm, ⟨3, _⟩ => ⟨S_, .f32⟩
  | .hbm, ⟨4, _⟩ => ⟨S32x384x34x34, .f32⟩
  | .hbm, ⟨5, _⟩ => ⟨S_, .f32⟩
  | .hbm, ⟨6, _⟩ => ⟨S32x384x32x32, .f32⟩
  | .hbm, ⟨7, _⟩ => ⟨S32x384x32x32, .f32⟩
  | .hbm, ⟨8, _⟩ => ⟨S384x1x1, .f32⟩
  | .hbm, ⟨9, _⟩ => ⟨S384, .f32⟩
  | .hbm, ⟨10, _⟩ => ⟨S1x384x1x1, .f32⟩
  | .hbm, ⟨11, _⟩ => ⟨S32x384x32x32, .f32⟩
  | .hbm, ⟨12, _⟩ => ⟨S32x384x32x32, .f32⟩
  | .hbm, ⟨13, _⟩ => ⟨S32x384x32x32, .f32⟩
  | .hbm, ⟨14, _⟩ => ⟨S32x384x32x32, .f32⟩
  | .hbm, ⟨15, _⟩ => ⟨S32x384x32x32, .f32⟩
  | .hbm, ⟨16, _⟩ => ⟨S384x1x1, .f32⟩
  | .hbm, ⟨17, _⟩ => ⟨S384, .f32⟩
  | .hbm, ⟨18, _⟩ => ⟨S1x384x1x1, .f32⟩
  | .hbm, ⟨19, _⟩ => ⟨S32x384x32x32, .f32⟩
  | .hbm, ⟨20, _⟩ => ⟨S32x384x32x32, .f32⟩
  | .hbm, ⟨21, _⟩ => ⟨S32x384x32x32, .f32⟩
  | .hbm, ⟨22, _⟩ => ⟨S32x384x32x32, .f32⟩
  | .hbm, ⟨23, _⟩ => ⟨S32x384x32x32, .f32⟩
  | .hbm, ⟨24, _⟩ => ⟨S384x1x1, .f32⟩
  | .hbm, ⟨25, _⟩ => ⟨S384, .f32⟩
  | .hbm, ⟨26, _⟩ => ⟨S1x384x1x1, .f32⟩
  | .hbm, ⟨27, _⟩ => ⟨S32x384x32x32, .f32⟩
  | .hbm, ⟨28, _⟩ => ⟨S32x384x32x32, .f32⟩
  | .hbm, ⟨29, _⟩ => ⟨S32x384x32x32, .f32⟩
  | .hbm, ⟨30, _⟩ => ⟨S32x384x32x32, .f32⟩
  | .hbm, ⟨31, _⟩ => ⟨S32x384x32x32, .f32⟩
  | .hbm, ⟨32, _⟩ => ⟨S384x1x1, .f32⟩
  | .hbm, ⟨33, _⟩ => ⟨S384, .f32⟩
  | .hbm, ⟨34, _⟩ => ⟨S1x384x1x1, .f32⟩
  | .hbm, ⟨35, _⟩ => ⟨S32x384x32x32, .f32⟩
  | .hbm, ⟨36, _⟩ => ⟨S32x384x32x32, .f32⟩
  | .hbm, ⟨37, _⟩ => ⟨S32x384x32x32, .f32⟩
  | .hbm, ⟨38, _⟩ => ⟨S32x384x32x32, .f32⟩
  | .hbm, ⟨39, _⟩ => ⟨S32x384x32x32, .f32⟩
  | .hbm, ⟨40, _⟩ => ⟨S384x1x1, .f32⟩
  | .hbm, ⟨41, _⟩ => ⟨S384, .f32⟩
  | .hbm, ⟨42, _⟩ => ⟨S1x384x1x1, .f32⟩
  | .hbm, ⟨43, _⟩ => ⟨S32x384x32x32, .f32⟩
  | .hbm, ⟨44, _⟩ => ⟨S32x384x32x32, .f32⟩
  | .hbm, ⟨45, _⟩ => ⟨S32x384x32x32, .f32⟩
  | .hbm, ⟨46, _⟩ => ⟨S32x384x32x32, .f32⟩
  | .hbm, ⟨47, _⟩ => ⟨S32x384x32x32, .f32⟩
  | .hbm, ⟨48, _⟩ => ⟨S384x1x1, .f32⟩
  | .hbm, ⟨49, _⟩ => ⟨S384, .f32⟩
  | .hbm, ⟨50, _⟩ => ⟨S1x384x1x1, .f32⟩
  | .hbm, ⟨51, _⟩ => ⟨S32x384x32x32, .f32⟩
  | .hbm, ⟨52, _⟩ => ⟨S32x384x32x32, .f32⟩
  | .hbm, ⟨53, _⟩ => ⟨S32x384x32x32, .f32⟩
  | .hbm, ⟨54, _⟩ => ⟨S32x384x32x32, .f32⟩
  | .hbm, ⟨55, _⟩ => ⟨S32x384x32x32, .f32⟩
  | .hbm, ⟨56, _⟩ => ⟨S384x1x1, .f32⟩
  | .hbm, ⟨57, _⟩ => ⟨S384, .f32⟩
  | .hbm, ⟨58, _⟩ => ⟨S1x384x1x1, .f32⟩
  | .hbm, ⟨59, _⟩ => ⟨S32x384x32x32, .f32⟩
  | .hbm, ⟨60, _⟩ => ⟨S32x384x32x32, .f32⟩
  | .hbm, ⟨61, _⟩ => ⟨S32x384x32x32, .f32⟩
  | .hbm, ⟨62, _⟩ => ⟨S32x384x32x32, .f32⟩
  | .hbm, ⟨63, _⟩ => ⟨S32x384x32x32, .f32⟩
  | .hbm, ⟨64, _⟩ => ⟨S384x1x1, .f32⟩
  | .hbm, ⟨65, _⟩ => ⟨S384, .f32⟩
  | .hbm, ⟨66, _⟩ => ⟨S1x384x1x1, .f32⟩
  | .hbm, ⟨67, _⟩ => ⟨S32x384x32x32, .f32⟩
  | .hbm, ⟨68, _⟩ => ⟨S32x384x32x32, .f32⟩
  | .hbm, ⟨69, _⟩ => ⟨S32x384x32x32, .f32⟩
  | .hbm, ⟨70, _⟩ => ⟨S32x384x32x32, .f32⟩
  | .hbm, ⟨71, _⟩ => ⟨S32x384x32x32, .f32⟩
  | .hbm, ⟨72, _⟩ => ⟨S384x1x1, .f32⟩
  | .hbm, ⟨73, _⟩ => ⟨S384, .f32⟩
  | .hbm, ⟨74, _⟩ => ⟨S1x384x1x1, .f32⟩
  | .hbm, ⟨75, _⟩ => ⟨S32x384x32x32, .f32⟩
  | .hbm, ⟨76, _⟩ => ⟨S32x384x32x32, .f32⟩
  | .hbm, ⟨77, _⟩ => ⟨S32x384x32x32, .f32⟩
  | .hbm, ⟨78, _⟩ => ⟨S32x384x32x32, .f32⟩
  | _, _ => ⟨S32x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩

abbrev nD : Nat := 1
abbrev τ : Topo := Topo.v7x

variable {F : FTy → Type} [FloatOps F]

class Facts₀ : Prop where
  pads_S32x384x32x32_S32x384x34x34_000_000_110_110 : S32x384x32x32.Pads (![0, 0, 1, 1] : Fin 4 → Nat) ![0, 0, 1, 1] ![0, 0, 0, 0] S32x384x34x34
  h_S_ : 0 < S_.numel
  bcast_S_S32x384x32x32 : S_.BroadcastsInDim S32x384x32x32 (![] : Fin 0 → Fin S32x384x32x32.rank)
  slices_S32x384x34x34_S32x384x32x32_0_0_0_0 : S32x384x34x34.Slices ![0, 0, 0, 0] S32x384x32x32
  slices_S384x3x3_S384x1x1_0_0_0 : S384x3x3.Slices ![0, 0, 0] S384x1x1
  shapeCasts_S384x1x1_S384 : S384x1x1.ShapeCasts S384
  bcast_S384_S1x384x1x1_1 : S384.BroadcastsInDim S1x384x1x1 (![1] : Fin 1 → Fin S1x384x1x1.rank)
  bcast_S1x384x1x1_S32x384x32x32_0_1_2_3 : S1x384x1x1.BroadcastsInDim S32x384x32x32 (![0, 1, 2, 3] : Fin 4 → Fin S32x384x32x32.rank)
  slices_S32x384x34x34_S32x384x32x32_0_0_0_1 : S32x384x34x34.Slices ![0, 0, 0, 1] S32x384x32x32
  slices_S384x3x3_S384x1x1_0_0_1 : S384x3x3.Slices ![0, 0, 1] S384x1x1
  slices_S32x384x34x34_S32x384x32x32_0_0_0_2 : S32x384x34x34.Slices ![0, 0, 0, 2] S32x384x32x32
  slices_S384x3x3_S384x1x1_0_0_2 : S384x3x3.Slices ![0, 0, 2] S384x1x1
  slices_S32x384x34x34_S32x384x32x32_0_0_1_0 : S32x384x34x34.Slices ![0, 0, 1, 0] S32x384x32x32
  slices_S384x3x3_S384x1x1_0_1_0 : S384x3x3.Slices ![0, 1, 0] S384x1x1
  slices_S32x384x34x34_S32x384x32x32_0_0_1_1 : S32x384x34x34.Slices ![0, 0, 1, 1] S32x384x32x32
  slices_S384x3x3_S384x1x1_0_1_1 : S384x3x3.Slices ![0, 1, 1] S384x1x1
  slices_S32x384x34x34_S32x384x32x32_0_0_1_2 : S32x384x34x34.Slices ![0, 0, 1, 2] S32x384x32x32
  slices_S384x3x3_S384x1x1_0_1_2 : S384x3x3.Slices ![0, 1, 2] S384x1x1
  slices_S32x384x34x34_S32x384x32x32_0_0_2_0 : S32x384x34x34.Slices ![0, 0, 2, 0] S32x384x32x32
  slices_S384x3x3_S384x1x1_0_2_0 : S384x3x3.Slices ![0, 2, 0] S384x1x1
  slices_S32x384x34x34_S32x384x32x32_0_0_2_1 : S32x384x34x34.Slices ![0, 0, 2, 1] S32x384x32x32
  slices_S384x3x3_S384x1x1_0_2_1 : S384x3x3.Slices ![0, 2, 1] S384x1x1
  slices_S32x384x34x34_S32x384x32x32_0_0_2_2 : S32x384x34x34.Slices ![0, 0, 2, 2] S32x384x32x32
  slices_S384x3x3_S384x1x1_0_2_2 : S384x3x3.Slices ![0, 2, 2] S384x1x1

variable [Facts₀]

class Facts : Prop extends Facts₀ where

variable [Facts]
-- ==== Proof.Tap.lean ====
/-
  The arithmetic of a depthwise L1 ("adder") filter with a 3×3 window, and the one layout fact its two
  statements differ by.

  Output entry (n, c, i, j) starts from a value `z` and subtracts, tap by tap in row-major order of the window,
  the distance |p − q| between a zero-padded input entry `p = xpad (n, c, i + u, j + v)` and the channel's weight
  `q = w (c, u, v)`. Nothing here uses a law of the extended reals: the two programs compared perform the same
  nine subtractions in the same order, so only WHICH entries they read has to be identified.

  That is the layout fact: padding the two image axes of a channel-first array by one on each side, and padding
  the same two axes after the channel axis has been moved last, give the same entry at corresponding indices —
  the input entry inside the image, the padding value on the one-wide border.
-/
import Idealize.ShloMosaic.PureOps.Ideal
import Idealize.ShloMosaic.Lib.ValueIdx
import Idealize.ShloMosaic.Lib.Pipeline.Value
import Idealize.ShloMosaic.Lib.KernelVsHost

noncomputable section

namespace Cert.AdderConv

open Idealize.ShloMosaic Idealize.ShloMosaic.ValueIdx

/-! ## One tap, nine taps -/

section Taps
variable {F : FTy → Type} [FloatOps F]

/-- One tap: the running value minus the distance between an input entry `p` and a weight `q`. -/
def tap (acc p q : F .f32) : F .f32 := FloatOps.subf acc (FloatOps.absf (FloatOps.subf p q))

/-- The nine taps of the 3×3 window in row-major order, from the starting value `z`: `p u v` is the input entry
    and `q u v` the weight at window position (u, v). -/
def conv9 (z : F .f32) (p q : Fin 3 → Fin 3 → F .f32) : F .f32 :=
  tap (tap (tap (tap (tap (tap (tap (tap (tap z (p 0 0) (q 0 0)) (p 0 1) (q 0 1)) (p 0 2) (q 0 2))
    (p 1 0) (q 1 0)) (p 1 1) (q 1 1)) (p 1 2) (q 1 2)) (p 2 0) (q 2 0)) (p 2 1) (q 2 1)) (p 2 2) (q 2 2)

/-- Two taps agree when their running values and their weights do. -/
theorem tap_congr {acc acc' p q q' : F .f32} (ha : acc = acc') (hq : q = q') : tap acc p q = tap acc' p q' := by
  rw [ha, hq]

/-- The nine taps agree when the entries read and the weights do, position by position. -/
theorem conv9_congr {z : F .f32} {p p' q q' : Fin 3 → Fin 3 → F .f32}
    (hp : ∀ u v, p u v = p' u v) (hq : ∀ u v, q u v = q' u v) : conv9 z p q = conv9 z p' q' := by
  have ep : p = p' := funext fun u => funext fun v => hp u v
  have eq' : q = q' := funext fun u => funext fun v => hq u v
  rw [ep, eq']

end Taps

/-- Output row (or column) `i` meets rows `i`, `i + 1`, `i + 2` of the padded input: window offset `u` moves it to
    `u + i`, inside the 34 padded rows. -/
def sh (i : Fin 32) (u : Fin 3) : Fin 34 := ⟨u.val + i.val, by omega⟩

theorem sh_val (i : Fin 32) (u : Fin 3) : (sh i u).val = u.val + i.val := rfl

/-! ## Padding the image axes commutes with moving the channel axis last -/

/-- Channel-first: batch, channel, row, column. -/
abbrev Snchw : Shape := ⟨4, ![32, 384, 32, 32]⟩
/-- Channel-first, the image padded by one on every side. -/
abbrev SnchwPad : Shape := ⟨4, ![32, 384, 34, 34]⟩
/-- Channel-last: batch, row, column, channel. -/
abbrev Snhwc : Shape := ⟨4, ![32, 32, 32, 384]⟩
/-- Channel-last, the image padded by one on every side. -/
abbrev SnhwcPad : Shape := ⟨4, ![32, 34, 34, 384]⟩

section PadLayout
variable {α : Type}

/-- Entry (n, a, b, c) of the channel-last padded array is entry (n, c, a, b) of the channel-first padded array:
    for 1 ≤ a, b ≤ 32 both are the input's entry (n, c, a − 1, b − 1), and on the border both are the padding value. -/
theorem pad_channel_last (x : Snchw.Idx → α) {u : Shape} (v : u.Idx → α) (hu : 0 < u.numel)
    (hT : Snchw.Transposes [0, 2, 3, 1] Snhwc)
    (hPl : Snhwc.Pads ![0, 1, 1, 0] ![0, 1, 1, 0] ![0, 0, 0, 0] SnhwcPad)
    (hPf : Snchw.Pads ![0, 0, 1, 1] ![0, 0, 1, 1] ![0, 0, 0, 0] SnchwPad)
    (n : Fin 32) (a b : Fin 34) (c : Fin 384) :
    pad SnhwcPad ![0, 1, 1, 0] ![0, 1, 1, 0] ![0, 0, 0, 0] (transpose Snhwc [0, 2, 3, 1] x hT) v hPl hu (ix4 n a b c)
      = pad SnchwPad ![0, 0, 1, 1] ![0, 0, 1, 1] ![0, 0, 0, 0] x v hPf hu (ix4 n c a b) := by
  have ha34 : a.val < 34 := a.isLt
  have hb34 : b.val < 34 := b.isLt
  by_cases ha : 1 ≤ a.val ∧ a.val ≤ 32
  · by_cases hb : 1 ≤ b.val ∧ b.val ≤ 32
    · -- inside the image: both read the input at (n, c, a − 1, b − 1)
      have ha' : a.val - 1 < 32 := by omega
      have hb' : b.val - 1 < 32 := by omega
      rw [pad_apply_of_inside _ _ _ _ v hPl hu (ix4 n a b c) (ix4 n ⟨a.val - 1, ha'⟩ ⟨b.val - 1, hb'⟩ c) (fun d => match d with
          | ⟨0, _⟩ => by show n.val = 0 + n.val * (0 + 1); omega
          | ⟨1, _⟩ => by show a.val = 1 + (a.val - 1) * (0 + 1); omega
          | ⟨2, _⟩ => by show b.val = 1 + (b.val - 1) * (0 + 1); omega
          | ⟨3, _⟩ => by show c.val = 0 + c.val * (0 + 1); omega),
        pad_apply_of_inside _ _ _ x v hPf hu (ix4 n c a b) (ix4 n c ⟨a.val - 1, ha'⟩ ⟨b.val - 1, hb'⟩) (fun d => match d with
          | ⟨0, _⟩ => by show n.val = 0 + n.val * (0 + 1); omega
          | ⟨1, _⟩ => by show c.val = 0 + c.val * (0 + 1); omega
          | ⟨2, _⟩ => by show a.val = 1 + (a.val - 1) * (0 + 1); omega
          | ⟨3, _⟩ => by show b.val = 1 + (b.val - 1) * (0 + 1); omega)]
      exact transpose_apply [0, 2, 3, 1] x hT (ix4 n ⟨a.val - 1, ha'⟩ ⟨b.val - 1, hb'⟩ c) (ix4 n c ⟨a.val - 1, ha'⟩ ⟨b.val - 1, hb'⟩)
        (fun d => match d with
          | ⟨0, _⟩ => rfl
          | ⟨1, _⟩ => rfl
          | ⟨2, _⟩ => rfl
          | ⟨3, _⟩ => rfl)
    · -- a border column: both are the padding value
      rw [pad_apply_of_not_inside _ _ _ _ v hPl hu (ix4 n a b c) ⟨2, by decide⟩ (by
            show ¬(1 ≤ b.val ∧ (b.val - 1) % (0 + 1) = 0 ∧ (b.val - 1) / (0 + 1) < 32); omega),
        pad_apply_of_not_inside _ _ _ x v hPf hu (ix4 n c a b) ⟨3, by decide⟩ (by
            show ¬(1 ≤ b.val ∧ (b.val - 1) % (0 + 1) = 0 ∧ (b.val - 1) / (0 + 1) < 32); omega)]
  · -- a border row: both are the padding value
    rw [pad_apply_of_not_inside _ _ _ _ v hPl hu (ix4 n a b c) ⟨1, by decide⟩ (by
          show ¬(1 ≤ a.val ∧ (a.val - 1) % (0 + 1) = 0 ∧ (a.val - 1) / (0 + 1) < 32); omega),
      pad_apply_of_not_inside _ _ _ x v hPf hu (ix4 n c a b) ⟨2, by decide⟩ (by
          show ¬(1 ≤ a.val ∧ (a.val - 1) % (0 + 1) = 0 ∧ (a.val - 1) / (0 + 1) < 32); omega)]

end PadLayout

end Cert.AdderConv

end
-- ==== Proof.KernelBlock.lean ====
/-
  What the kernel body leaves in its output block, entry by entry.

  At one grid point the body holds one batch's padded channel-last slab `x0` (1 × 34 × 34 × 384) and the whole
  weight array `x1` (384 × 3 × 3), and stores one 1 × 32 × 32 × 384 block. Entry (0, i, j, c) of that block is
  the nine taps of the 3×3 window: from the zero word it subtracts, for (u, v) in row-major order,
  |x0 (0, u + i, v + j, c) − x1 (c, u, v)|. Each tap of the body is the same four steps — the slab loaded at
  offset (u, v) with its unit axis cast away, the weight column (·, u, v) cast to a row and broadcast over the
  image, their difference's absolute value, and the running value minus it — so one lemma reads a tap at an
  index and the payloads are that lemma nine times.
-/
import proofs.«167648_j171798692025_1_alg».proof.Proof.Gen.KernelIdeal.Frame
import proofs.«167648_j171798692025_1_alg».proof.Proof.Tap
import Idealize.ShloMosaic.Lib.ValueIdx
import Idealize.ShloMosaic.Lib.Pipeline.Value

noncomputable section

namespace Cert.KernelIdeal.Block

open Idealize.ShloMosaic Idealize.ShloMosaic.ValueIdx Cert.KernelIdeal Cert.KernelIdeal.Gen Cert.AdderConv

variable {F : FTy → Type} [FloatOps F]

/-! ## The layout steps of one tap, read at an index -/

/-- A loaded 1 × 32 × 32 × 384 piece with its unit axis cast away: entry (i, j, c) is the piece's (0, i, j, c). -/
theorem cast_load (L : Vec F S1x32x32x384 .f32) (h : S1x32x32x384.ShapeCasts S32x32x384) (i j : Fin 32) (c : Fin 384) :
    shapeCast S32x32x384 L h (ix3 i j c) = L (ix4 (0 : Fin 1) i j c) :=
  shapeCast_apply L h (ix3 i j c) (ix4 (0 : Fin 1) i j c) (by
    rewrite [Shape.rowMajor_val_four, Shape.rowMajor_val_three]
    show ((0 * 32 + i.val) * 32 + j.val) * 384 + c.val = (i.val * 32 + j.val) * 384 + c.val
    omega)

/-- A weight column 384 × 1 × 1 cast to a vector of 384 and then to a 1 × 1 × 384 row: entry (0, 0, c) is the column's (c, 0, 0). -/
theorem cast_weight (ws : FVec F S384x1x1 .f32) (h1 : S384x1x1.ShapeCasts S384) (h2 : S384.ShapeCasts S1x1x384) (c : Fin 384) :
    shapeCast S1x1x384 (shapeCast S384 ws h1) h2 (ix3 (0 : Fin 1) (0 : Fin 1) c) = ws (ix3 c (0 : Fin 1) (0 : Fin 1)) :=
  (shapeCast_apply (shapeCast S384 ws h1) h2 (ix3 (0 : Fin 1) (0 : Fin 1) c) (ix1 c) (by
    rewrite [Shape.rowMajor_val_one, Shape.rowMajor_val_three]
    show c.val = (0 * 1 + 0) * 384 + c.val
    omega)).trans
  (shapeCast_apply ws h1 (ix1 c) (ix3 c (0 : Fin 1) (0 : Fin 1)) (by
    rewrite [Shape.rowMajor_val_three, Shape.rowMajor_val_one]
    show (c.val * 1 + 0) * 1 + 0 = c.val
    omega))

/-- The weight column at window position (u, v): entry (c, 0, 0) of the slice at offsets (0, u, v) is the weight (c, u, v). -/
theorem slice_weight (W : Vec F S384x3x3 .f32) (off : Fin 3 → Nat) (h : S384x3x3.Slices off S384x1x1) (u v : Fin 3)
    (h0 : off 0 = 0) (h1 : off 1 = u.val) (h2 : off 2 = v.val) (c : Fin 384) :
    extractStridedSlice S384x1x1 off W h (ix3 c (0 : Fin 1) (0 : Fin 1)) = W (ix3 c u v) :=
  extractStridedSlice_apply off W h (ix3 c (0 : Fin 1) (0 : Fin 1)) (ix3 c u v) (fun a => match a with
    | ⟨0, _⟩ => by show c.val = off 0 + c.val; omega
    | ⟨1, _⟩ => by show u.val = off 1 + 0; omega
    | ⟨2, _⟩ => by show v.val = off 2 + 0; omega)

/-- A load of the padded slab through the 1 × 32 × 32 × 384 rectangle at offsets (0, u, v, 0): entry (0, i, j, c) is the
    slab's (0, u + i, v + j, c). -/
theorem load_at (X : Vec F S1x34x34x384 .f32) (off : Fin 4 → Nat) (inb : ∀ a, off a + S1x32x32x384.size a ≤ S1x34x34x384.size a)
    (u v : Fin 3) (h0 : off 0 = 0) (h1 : off 1 = u.val) (h2 : off 2 = v.val) (h3 : off 3 = 0) (i j : Fin 32) (c : Fin 384) :
    View.ld X (Rect.unit (s := S1x34x34x384) off S1x32x32x384.size inb) (ix4 (0 : Fin 1) i j c)
      = X (ix4 (0 : Fin 1) (sh i u) (sh j v) c) := by
  show X _ = X _
  refine congrArg X (funext fun a => Fin.ext ?_)
  match a with
  | ⟨0, _⟩ => show off 0 + 1 * 0 = 0; omega
  | ⟨1, _⟩ => show off 1 + 1 * i.val = u.val + i.val; omega
  | ⟨2, _⟩ => show off 2 + 1 * j.val = v.val + j.val; omega
  | ⟨3, _⟩ => show off 3 + 1 * c.val = c.val; omega

/-! ## One tap of the body -/

/-- The running block minus |p − b broadcast over the image|, at (i, j, c). -/
theorem body_tap (acc p : FVec F S32x32x384 .f32) (b : FVec F S1x1x384 .f32) (h : S1x1x384.Broadcasts S32x32x384)
    (i j : Fin 32) (c : Fin 384) :
    subf acc (absf (subf p (broadcastTo S32x32x384 b h))) (ix3 i j c)
      = tap (acc (ix3 i j c)) (p (ix3 i j c)) (b (ix3 (0 : Fin 1) (0 : Fin 1) c)) := by
  show FloatOps.subf (acc (ix3 i j c)) (FloatOps.absf (FloatOps.subf (p (ix3 i j c)) (broadcastTo S32x32x384 b h (ix3 i j c)))) = _
  rw [broadcastTo_apply b h (ix3 i j c) (ix3 (0 : Fin 1) (0 : Fin 1) c) (fun a => match a with
    | ⟨0, _⟩ => by show (0 : Nat) = if (1 : Nat) = 1 then 0 else _; exact (if_pos rfl).symm
    | ⟨1, _⟩ => by show (0 : Nat) = if (1 : Nat) = 1 then 0 else _; exact (if_pos rfl).symm
    | ⟨2, _⟩ => by show c.val = if (384 : Nat) = 1 then 0 else c.val; exact (if_neg (by decide)).symm)]
  rfl

/-- One whole tap: the load cast to the image, the weight column cast to a row. -/
theorem body_tap_load (acc : FVec F S32x32x384 .f32) (L : Vec F S1x32x32x384 .f32) (ws : FVec F S384x1x1 .f32)
    (hL : S1x32x32x384.ShapeCasts S32x32x384) (h1 : S384x1x1.ShapeCasts S384) (h2 : S384.ShapeCasts S1x1x384)
    (hb : S1x1x384.Broadcasts S32x32x384) (i j : Fin 32) (c : Fin 384) :
    subf acc (absf (subf (shapeCast S32x32x384 L hL) (broadcastTo S32x32x384 (shapeCast S1x1x384 (shapeCast S384 ws h1) h2) hb))) (ix3 i j c)
      = tap (acc (ix3 i j c)) (L (ix4 (0 : Fin 1) i j c)) (ws (ix3 c (0 : Fin 1) (0 : Fin 1))) := by
  rw [body_tap, cast_load, cast_weight]

/-! ## The payloads at an index -/

/-- The first four taps, from the zero word. -/
theorem pay2_at (W : Vec F S384x3x3 .f32) (L1 L2 L3 L4 : Vec F S1x32x32x384 .f32) (i j : Fin 32) (c : Fin 384) :
    k0_pay2 W L1 L2 L3 L4 (ix3 i j c)
      = tap (tap (tap (tap (Scalar.ofBits .f32 0x00000000#32) (L1 (ix4 (0 : Fin 1) i j c)) (W (ix3 c 0 0)))
          (L2 (ix4 (0 : Fin 1) i j c)) (W (ix3 c 0 1))) (L3 (ix4 (0 : Fin 1) i j c)) (W (ix3 c 0 2)))
          (L4 (ix4 (0 : Fin 1) i j c)) (W (ix3 c 1 0)) := by
  unfold k0_pay2
  refine (body_tap_load _ L4 _ _ _ _ _ i j c).trans (tap_congr ?_ (slice_weight W ![0, 1, 0] _ 1 0 rfl rfl rfl c))
  refine (body_tap_load _ L3 _ _ _ _ _ i j c).trans (tap_congr ?_ (slice_weight W ![0, 0, 2] _ 0 2 rfl rfl rfl c))
  refine (body_tap_load _ L2 _ _ _ _ _ i j c).trans (tap_congr ?_ (slice_weight W ![0, 0, 1] _ 0 1 rfl rfl rfl c))
  exact (body_tap_load _ L1 _ _ _ _ _ i j c).trans (tap_congr rfl (slice_weight W ![0, 0, 0] _ 0 0 rfl rfl rfl c))

/-- The weight column of the centre tap. -/
theorem pay3_at (W : Vec F S384x3x3 .f32) (c : Fin 384) :
    k0_pay3 W (ix3 c (0 : Fin 1) (0 : Fin 1)) = W (ix3 c 1 1) := by
  unfold k0_pay3
  exact slice_weight W ![0, 1, 1] _ 1 1 rfl rfl rfl c

/-- Taps five to eight, continuing a running block `acc`; the fifth tap's weight column `ws` is handed in. -/
theorem pay4_at (W : Vec F S384x3x3 .f32) (acc : FVec F S32x32x384 .f32) (ws : FVec F S384x1x1 .f32)
    (L5 L6 L7 L8 : Vec F S1x32x32x384 .f32) (i j : Fin 32) (c : Fin 384) :
    k0_pay4 W acc ws L5 L6 L7 L8 (ix3 i j c)
      = tap (tap (tap (tap (acc (ix3 i j c)) (L5 (ix4 (0 : Fin 1) i j c)) (ws (ix3 c (0 : Fin 1) (0 : Fin 1))))
          (L6 (ix4 (0 : Fin 1) i j c)) (W (ix3 c 1 2))) (L7 (ix4 (0 : Fin 1) i j c)) (W (ix3 c 2 0)))
          (L8 (ix4 (0 : Fin 1) i j c)) (W (ix3 c 2 1)) := by
  unfold k0_pay4
  refine (body_tap_load _ L8 _ _ _ _ _ i j c).trans (tap_congr ?_ (slice_weight W ![0, 2, 1] _ 2 1 rfl rfl rfl c))
  refine (body_tap_load _ L7 _ _ _ _ _ i j c).trans (tap_congr ?_ (slice_weight W ![0, 2, 0] _ 2 0 rfl rfl rfl c))
  refine (body_tap_load _ L6 _ _ _ _ _ i j c).trans (tap_congr ?_ (slice_weight W ![0, 1, 2] _ 1 2 rfl rfl rfl c))
  exact body_tap_load acc L5 ws _ _ _ _ i j c

/-- The last tap's weight row. -/
theorem pay5_at (W : Vec F S384x3x3 .f32) (c : Fin 384) :
    k0_pay5 W (ix3 (0 : Fin 1) (0 : Fin 1) c) = W (ix3 c 2 2) := by
  unfold k0_pay5
  exact (cast_weight _ _ _ c).trans (slice_weight W ![0, 2, 2] _ 2 2 rfl rfl rfl c)

/-- The last tap's load. -/
theorem pay6_at (L : Vec F S1x32x32x384 .f32) (i j : Fin 32) (c : Fin 384) :
    k0_pay6 L (ix3 i j c) = L (ix4 (0 : Fin 1) i j c) := by
  unfold k0_pay6
  exact cast_load L _ i j c

/-- The ninth tap, and the unit axis cast back for the store. -/
theorem pay1_at (acc : FVec F S32x32x384 .f32) (b : FVec F S1x1x384 .f32) (p : FVec F S32x32x384 .f32)
    (i j : Fin 32) (c : Fin 384) :
    k0_pay1 acc b p (ix4 (0 : Fin 1) i j c) = tap (acc (ix3 i j c)) (p (ix3 i j c)) (b (ix3 (0 : Fin 1) (0 : Fin 1) c)) := by
  unfold k0_pay1
  refine (shapeCast_apply _ _ (ix4 (0 : Fin 1) i j c) (ix3 i j c) (by
    rewrite [Shape.rowMajor_val_three, Shape.rowMajor_val_four]
    show (i.val * 32 + j.val) * 384 + c.val = ((0 * 32 + i.val) * 32 + j.val) * 384 + c.val
    omega)).trans ?_
  exact body_tap acc p b _ i j c

/-! ## The stored block -/

theorem zero4 : (![0, 0, 0, 0] : Fin 4 → Nat) = fun _ => 0 := funext fun a => by fin_cases a <;> rfl
theorem zero3 : (![0, 0, 0] : Fin 3 → Nat) = fun _ => 0 := funext fun a => by fin_cases a <;> rfl

/-- Entry (0, i, j, c) of the block the body stores: the nine taps over the slab's 3×3 neighbourhood of (i, j) in
    channel c and that channel's nine weights. -/
theorem block_at (x0 : Vec F S1x34x34x384 .f32) (x1 : Vec F S384x3x3 .f32) (i j : Fin 32) (c : Fin 384) :
    out0_2 x0 x1 (ix4 (0 : Fin 1) i j c)
      = conv9 (Scalar.ofBits .f32 0x00000000#32) (fun u v => x0 (ix4 (0 : Fin 1) (sh i u) (sh j v) c)) (fun u v => x1 (ix3 c u v)) := by
  unfold out0_2
  rw [View.canon_unit_zero zero4]
  simp only [View.ld_unit_zero (S := S384x3x3) zero3]
  rw [pay1_at, pay4_at, pay2_at, pay3_at, pay5_at, pay6_at]
  have e1 : View.ld x0 r0_1 (ix4 (0 : Fin 1) i j c) = x0 (ix4 (0 : Fin 1) (sh i 0) (sh j 0) c) := load_at x0 ![0, 0, 0, 0] _ 0 0 rfl rfl rfl rfl i j c
  have e2 : View.ld x0 r0_2 (ix4 (0 : Fin 1) i j c) = x0 (ix4 (0 : Fin 1) (sh i 0) (sh j 1) c) := load_at x0 ![0, 0, 1, 0] _ 0 1 rfl rfl rfl rfl i j c
  have e3 : View.ld x0 r0_3 (ix4 (0 : Fin 1) i j c) = x0 (ix4 (0 : Fin 1) (sh i 0) (sh j 2) c) := load_at x0 ![0, 0, 2, 0] _ 0 2 rfl rfl rfl rfl i j c
  have e4 : View.ld x0 r0_4 (ix4 (0 : Fin 1) i j c) = x0 (ix4 (0 : Fin 1) (sh i 1) (sh j 0) c) := load_at x0 ![0, 1, 0, 0] _ 1 0 rfl rfl rfl rfl i j c
  have e5 : View.ld x0 r0_5 (ix4 (0 : Fin 1) i j c) = x0 (ix4 (0 : Fin 1) (sh i 1) (sh j 1) c) := load_at x0 ![0, 1, 1, 0] _ 1 1 rfl rfl rfl rfl i j c
  have e6 : View.ld x0 r0_6 (ix4 (0 : Fin 1) i j c) = x0 (ix4 (0 : Fin 1) (sh i 1) (sh j 2) c) := load_at x0 ![0, 1, 2, 0] _ 1 2 rfl rfl rfl rfl i j c
  have e7 : View.ld x0 r0_7 (ix4 (0 : Fin 1) i j c) = x0 (ix4 (0 : Fin 1) (sh i 2) (sh j 0) c) := load_at x0 ![0, 2, 0, 0] _ 2 0 rfl rfl rfl rfl i j c
  have e8 : View.ld x0 r0_8 (ix4 (0 : Fin 1) i j c) = x0 (ix4 (0 : Fin 1) (sh i 2) (sh j 1) c) := load_at x0 ![0, 2, 1, 0] _ 2 1 rfl rfl rfl rfl i j c
  have e9 : View.ld x0 r0_9 (ix4 (0 : Fin 1) i j c) = x0 (ix4 (0 : Fin 1) (sh i 2) (sh j 2) c) := load_at x0 ![0, 2, 2, 0] _ 2 2 rfl rfl rfl rfl i j c
  rw [e1, e2, e3, e4, e5, e6, e7, e8, e9]
  rfl

end Cert.KernelIdeal.Block

end
-- ==== Proof.KernelValue.lean ====
/-
  The kernel's result array: from what one grid point stores to the whole program's output.

  The grid has one point per batch entry. Point `t` stages slab `t` of the channel-last padded input (block
  index (t, 0, 0, 0) of a 32 × 34 × 34 × 384 array), the whole weight array, and writes back block (t, 0, 0, 0) of
  the 32 × 32 × 32 × 384 channel-last result. So what point `t` writes is block `t` of ONE function of the
  region's arrays — entry (n, i, j, c) is the nine taps over the padded array's entries (n, u + i, v + j, c) and
  the weights (c, u, v) — the 32 blocks cover the result array, and it ends holding that function. Before the
  region @main transposes the input to channel-last and pads it; after the region it transposes the result back
  to channel-first, which is the program's output.
-/
import proofs.«167648_j171798692025_1_alg».proof.Proof.KernelBlock
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Block Cert.AdderConv

variable {F : FTy → Type} [FloatOps F]

/-! ## The channel-last result as one function of the region's arrays -/

/-- Entry (n, i, j, c) of the channel-last result: the nine taps over the padded array `P` around (i, j) in channel c
    of batch n, and channel c's weights. -/
def convAt (P : Vec F S32x34x34x384 .f32) (W : Vec F S384x3x3 .f32) (n i j : Fin 32) (c : Fin 384) : F .f32 :=
  conv9 (Scalar.ofBits .f32 0x00000000#32) (fun u v => P (ix4 n (sh i u) (sh j v) c)) (fun u v => W (ix3 c u v))

/-- The channel-last result array. -/
def convLast (P : Vec F S32x34x34x384 .f32) (W : Vec F S384x3x3 .f32) : Vec F S32x32x32x384 .f32 :=
  fun y => convAt P W ⟨(y 0).val, (y 0).isLt⟩ ⟨(y 1).val, (y 1).isLt⟩ ⟨(y 2).val, (y 2).isLt⟩ ⟨(y 3).val, (y 3).isLt⟩

theorem convLast_ix (P : Vec F S32x34x34x384 .f32) (W : Vec F S384x3x3 .f32) (n i j : Fin 32) (c : Fin 384) :
    convLast P W (ix4 n i j c) = convAt P W n i j c := rfl

/-! ## The windows' blocks at a grid point -/

/-- A grid point is a batch entry. -/
def bt (t : Fin cfg0.N) : Fin 32 := ⟨t.val, by have h := t.isLt; have e : cfg0.N = 32 := N_0; omega⟩

/-- The printed index maps over the grid: the slab and the result move with the point along the batch axis only, the
    weights do not move. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

variable (m : (ℓ : Loc nD τ sig) → Buf (Elt F) ℓ) (ρ : Dev nD → PrngReg)

/-- The slab point `t` stages, and the weights it stages, at their literal types. -/
abbrev slab (c : Dev nD) (t : Fin cfg0.N) : Vec F S1x34x34x384 .f32 := iblk m c 0 t
abbrev wts (c : Dev nD) (t : Fin cfg0.N) : Vec F S384x3x3 .f32 := iblk m c 1 t

/-- Entry (0, a, b, c) of slab `t` is entry (t, a, b, c) of the padded array. -/
theorem slab_at (c : Dev nD) (t : Fin cfg0.N) (a b : Fin 34) (ch : Fin 384) :
    slab m c t (ix4 (0 : Fin 1) a b ch) = V m c main_v1 (ix4 (bt t) a b ch) := by
  show V m c main_v1 (((cfg0.win 0).blk t).view.emb (ix4 (0 : Fin 1) a b ch)) = V m c main_v1 (ix4 (bt t) a b ch)
  refine congrArg (V m c main_v1) (funext fun d => Fin.ext ?_)
  obtain ⟨e0, e1, e2, e3, -⟩ := idx_facts t
  match d with
  | ⟨0, _⟩ => show win0_0.index t (0 : Fin 4) * 1 + 1 * 0 = t.val; omega
  | ⟨1, _⟩ => show win0_0.index t (1 : Fin 4) * 34 + 1 * a.val = a.val; omega
  | ⟨2, _⟩ => show win0_0.index t (2 : Fin 4) * 34 + 1 * b.val = b.val; omega
  | ⟨3, _⟩ => show win0_0.index t (3 : Fin 4) * 384 + 1 * ch.val = ch.val; omega

/-- The staged weights are the weight array. -/
theorem wts_at (c : Dev nD) (t : Fin cfg0.N) (ch : Fin 384) (u v : Fin 3) :
    wts m c t (ix3 ch u v) = V m c main_arg1 (ix3 ch u v) := by
  show V m c main_arg1 (((cfg0.win 1).blk t).view.emb (ix3 ch u v)) = V m c main_arg1 (ix3 ch u v)
  refine congrArg (V m c main_arg1) (funext fun d => Fin.ext ?_)
  obtain ⟨-, -, -, -, e0, e1, e2, -⟩ := idx_facts t
  match d with
  | ⟨0, _⟩ => show win0_1.index t (0 : Fin 3) * 384 + 1 * ch.val = ch.val; omega
  | ⟨1, _⟩ => show win0_1.index t (1 : Fin 3) * 3 + 1 * u.val = u.val; omega
  | ⟨2, _⟩ => show win0_1.index t (2 : Fin 3) * 3 + 1 * v.val = v.val; omega

/-- Entry (0, i, j, c) of the block point `t` writes back lands at entry (t, i, j, c) of the result array. -/
theorem out_emb (t : Fin cfg0.N) (i j : Fin 32) (ch : Fin 384) :
    ((cfg0.win 2).blk t).view.emb (ix4 (0 : Fin 1) i j ch) = ix4 (bt t) i j ch := by
  funext d
  apply Fin.ext
  obtain ⟨-, -, -, -, -, -, -, e0, e1, e2, e3⟩ := idx_facts t
  match d with
  | ⟨0, _⟩ => show win0_2.index t (0 : Fin 4) * 1 + 1 * 0 = t.val; omega
  | ⟨1, _⟩ => show win0_2.index t (1 : Fin 4) * 32 + 1 * i.val = i.val; omega
  | ⟨2, _⟩ => show win0_2.index t (2 : Fin 4) * 32 + 1 * j.val = j.val; omega
  | ⟨3, _⟩ => show win0_2.index t (3 : Fin 4) * 384 + 1 * ch.val = ch.val; omega

/-! ## What a point writes back, and the array after the run -/

/-- What point `t` writes back is block `t` of the channel-last result of the arrays as the region finds them. -/
theorem flushed_eq (c : Dev nD) (t : Fin cfg0.N) :
    (dats m 0 c).flushed 2 t = ((cfg0.win 2).blk t).view.read (Elt F) (convLast (V m c main_v1) (V m c main_arg1)) := by
  show (cfg0.win 2).cut (grid0.coords t) ((dats m 0 c).after 2 t) = _
  rw [after0_2]
  funext y
  obtain ⟨z, i, j, ch, rfl⟩ : ∃ (z : Fin 1) (i j : Fin 32) (ch : Fin 384), y = ix4 z i j ch := ⟨y 0, y 1, y 2, y 3, eq_ix4 y⟩
  obtain rfl : z = 0 := Subsingleton.elim _ _
  show out0_2 (slab m c t) (wts m c t) (ix4 (0 : Fin 1) i j ch)
    = convLast (V m c main_v1) (V m c main_arg1) (((cfg0.win 2).blk t).view.emb (ix4 (0 : Fin 1) i j ch))
  rw [out_emb t i j ch, convLast_ix]
  refine (block_at (slab m c t) (wts m c t) i j ch).trans ?_
  exact conv9_congr (fun u v => slab_at m c t (sh i u) (sh j v) ch) (fun u v => wts_at m c t ch u v)

/-- An index of the result array is in point `t`'s block iff each coordinate is in the block's range on its axis. -/
theorem mem_blk (t : Fin cfg0.N) (y : S32x32x32x384.Idx) :
    y ∈ ((cfg0.win 2).blk t).view.set ↔ ∀ a : Fin 4, win0_2.index t a * S1x32x32x384.size a ≤ (y a).val
      ∧ (y a).val < win0_2.index t a * S1x32x32x384.size a + S1x32x32x384.size a := by
  show y ∈ ((View.whole main_v2).slice (win0_2.rect t)).set ↔ _
  rw [View.set_slice_whole, Rect.mem_set_unit]
  exact Iff.rfl

/-- Every entry of the result array is in the block of the point of its batch coordinate. -/
theorem cover (y : S32x32x32x384.Idx) :
    ∃ t : Fin cfg0.N, (cfg0.win 2).flush t = true ∧ y ∈ ((cfg0.win 2).blk t).view.set := by
  have h0 : (y 0).val < 32 := (y 0).isLt
  have h1 : (y 1).val < 32 := (y 1).isLt
  have h2 : (y 2).val < 32 := (y 2).isLt
  have h3 : (y 3).val < 384 := (y 3).isLt
  obtain ⟨t, ht⟩ : ∃ t : Fin cfg0.N, t.val = (y 0).val :=
    ⟨⟨(y 0).val, by have e : cfg0.N = 32 := N_0; omega⟩, rfl⟩
  obtain ⟨-, -, -, -, -, -, -, e0, e1, e2, e3⟩ := idx_facts t
  refine ⟨t, flush0_2 t, ?_⟩
  rw [mem_blk]
  intro a
  match a with
  | ⟨0, _⟩ => show win0_2.index t (0 : Fin 4) * 1 ≤ (y 0).val ∧ (y 0).val < win0_2.index t (0 : Fin 4) * 1 + 1; omega
  | ⟨1, _⟩ => show win0_2.index t (1 : Fin 4) * 32 ≤ (y 1).val ∧ (y 1).val < win0_2.index t (1 : Fin 4) * 32 + 32; omega
  | ⟨2, _⟩ => show win0_2.index t (2 : Fin 4) * 32 ≤ (y 2).val ∧ (y 2).val < win0_2.index t (2 : Fin 4) * 32 + 32; omega
  | ⟨3, _⟩ => show win0_2.index t (3 : Fin 4) * 384 ≤ (y 3).val ∧ (y 3).val < win0_2.index t (3 : Fin 4) * 384 + 384; omega

/-- The result array after the run is the channel-last result of the arrays as the region finds them. -/
theorem final (c : Dev nD) : (dats m 0 c).arrAt 2 cfg0.N = convLast (V m c main_v1) (V m c main_arg1) :=
  (dats m 0 c).arrAt_eq_of_cover 2 (convLast (V m c main_v1) (V m c main_arg1)) (fun t _ => flushed_eq m c t) cover

/-! ## Around the region -/

/-- The channel-last padded array @main builds from a channel-first input: the channel axis moved last, then the
    image padded by one on every side with the integer zero converted to a float. -/
def slabOf (x : Vec F S32x384x32x32 .f32) : Vec F S32x34x34x384 .f32 :=
  pad S32x34x34x384 ![0, 1, 1, 0] ![0, 1, 1, 0] ![0, 0, 0, 0]
    (transpose S32x32x32x384 [0, 2, 3, 1] x transposes_S32x384x32x32_S32x32x32x384_0_2_3_1)
    (sitofp (F := F) .f32 (constantI S_ 32 0#32)) pads_S32x32x32x384_S32x34x34x384_000_110_110_000 h_S_

/-- The program's output from its two inputs: the channel-last result of the padded array and the weights, with the
    channel axis moved back to second place. -/
def result (x : Vec F S32x384x32x32 .f32) (w : Vec F S384x3x3 .f32) : Vec F S32x384x32x32 .f32 :=
  transpose S32x384x32x32 [0, 3, 1, 2] (convLast (slabOf x) w) transposes_S32x32x32x384_S32x384x32x32_0_3_1_2

/-- The region finds the padded array built from the input as launched. -/
theorem V_slab (c : Dev nD) :
    (V m c main_v1 : Vec F S32x34x34x384 .f32) = slabOf (m ((c : Thread nD τ).loc main_arg0)) := by
  dsimp only [V, V0]
  simp only [hostOps0, hostOps0_1, List.flatten_cons, List.flatten_nil, List.append_nil, List.cons_append, List.nil_append]
  after_results
  rfl

/-- After the region and the transpose that follows it, the output buffer holds the program's result. -/
theorem tail_eq (c : Dev nD) :
    Pipeline.afterTail₀ cfgs (dats m) 0 (V0 m) [hostOps1] c main_v3
      = result (m ((c : Thread nD τ).loc main_arg0)) (m ((c : Thread nD τ).loc main_arg1)) := by
  unfold Pipeline.afterTail₀
  show StableHlo.after hostOps1 _ (Proc.devRef .tc main_v3) = _
  after_results
  rw [Pipeline.withArrays_arr spec0 launch0.win.arr_inj c _ _ 2, final, V_slab, V_main_arg1]
  rfl

/-! ## The run, read -/

/-- Every weakly fair execution of the program terminates with the output buffer at `result` of the two inputs and the
    inputs unchanged. -/
theorem run : θ_run defs (onTc (τ := τ) (main (F := F))) ⟨m, fun _ => 0, ρ⟩ fun r => ∀ c : Dev nD,
      r.2.mem ((c.tc : Thread nD τ).loc main_v3)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main m ρ)

end Cert.KernelIdeal.KValue

end
-- ==== Proof.RefValue.lean ====
/-
  The reference's result, entry by entry.

  The reference pads the channel-first input by one on every side of the image (the padded array `P`), starts
  from an array of the zero word and, for each window position (u, v) in row-major order, subtracts the
  absolute value of the difference between the 32 × 32 sub-image of `P` at offset (u, v) and the channel's
  weight (c, u, v) spread over batch and image. So entry (n, c, i, j) of its result is the nine taps over
  `P (n, c, u + i, v + j)` and `w (c, u, v)`. Each of its nine steps is the same seven operations — a slice of
  `P`, a slice of `w` reshaped and broadcast twice, a difference, an absolute value, a difference — so one
  lemma reads a step at an index and the result is that lemma nine times. The host's absolute value is the
  kernel's on the extended reals.
-/
import proofs.«167648_j171798692025_1_alg».proof.Proof.Gen.ReferenceIdeal.Read
import proofs.«167648_j171798692025_1_alg».proof.Proof.Tap
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Gen Cert.ReferenceIdeal.Read Cert.AdderConv

/-- One step of the reference at entry (n, c, i, j): the running array's entry minus the distance between the padded
    input's entry (n, c, u + i, v + j) and the weight (c, u, v). -/
theorem ref_tap (acc : FVec Ideal S32x384x32x32 .f32) (P : FVec Ideal S32x384x34x34 .f32) (W : FVec Ideal S384x3x3 .f32)
    (off4 : Fin 4 → Nat) (off3 : Fin 3 → Nat)
    (hs4 : S32x384x34x34.Slices off4 S32x384x32x32) (hs3 : S384x3x3.Slices off3 S384x1x1)
    (hc : S384x1x1.ShapeCasts S384) (hb1 : S384.BroadcastsInDim S1x384x1x1 ![1])
    (hb2 : S1x384x1x1.BroadcastsInDim S32x384x32x32 ![0, 1, 2, 3]) (u v : Fin 3)
    (h40 : off4 0 = 0) (h41 : off4 1 = 0) (h42 : off4 2 = u.val) (h43 : off4 3 = v.val)
    (h30 : off3 0 = 0) (h31 : off3 1 = u.val) (h32 : off3 2 = v.val)
    (n : Fin 32) (c : Fin 384) (i j : Fin 32) :
    subf acc (Host.absf (subf (extractStridedSlice S32x384x32x32 off4 P hs4)
        (broadcastInDim S32x384x32x32 ![0, 1, 2, 3] hb2
          (broadcastInDim S1x384x1x1 ![1] hb1 (shapeCast S384 (extractStridedSlice S384x1x1 off3 W hs3) hc))))) (ix4 n c i j)
      = tap (acc (ix4 n c i j)) (P (ix4 n c (sh i u) (sh j v))) (W (ix3 c u v)) := by
  show FloatOps.subf (acc (ix4 n c i j)) (FloatOps.hostAbsf (FloatOps.subf
      (extractStridedSlice S32x384x32x32 off4 P hs4 (ix4 n c i j))
      (broadcastInDim S32x384x32x32 ![0, 1, 2, 3] hb2
        (broadcastInDim S1x384x1x1 ![1] hb1 (shapeCast S384 (extractStridedSlice S384x1x1 off3 W hs3) hc)) (ix4 n c i j)))) = _
  rw [extractStridedSlice_apply off4 P hs4 (ix4 n c i j) (ix4 n c (sh i u) (sh j v)) (fun a => match a with
        | ⟨0, _⟩ => by show n.val = off4 0 + n.val; omega
        | ⟨1, _⟩ => by show c.val = off4 1 + c.val; omega
        | ⟨2, _⟩ => by show u.val + i.val = off4 2 + i.val; omega
        | ⟨3, _⟩ => by show v.val + j.val = off4 3 + j.val; omega),
    broadcastInDim_apply ![0, 1, 2, 3] hb2 _ (ix4 n c i j) (ix4 (0 : Fin 1) c (0 : Fin 1) (0 : Fin 1)) (fun a => match a with
        | ⟨0, _⟩ => by show (0 : Nat) = if (1 : Nat) = 1 then 0 else n.val; rw [if_pos rfl]
        | ⟨1, _⟩ => by show c.val = if (384 : Nat) = 1 then 0 else c.val; rw [if_neg (by decide)]
        | ⟨2, _⟩ => by show (0 : Nat) = if (1 : Nat) = 1 then 0 else i.val; rw [if_pos rfl]
        | ⟨3, _⟩ => by show (0 : Nat) = if (1 : Nat) = 1 then 0 else j.val; rw [if_pos rfl]),
    broadcastInDim_apply ![1] hb1 _ (ix4 (0 : Fin 1) c (0 : Fin 1) (0 : Fin 1)) (ix1 c) (fun a => match a with
        | ⟨0, _⟩ => by show c.val = if (384 : Nat) = 1 then 0 else c.val; rw [if_neg (by decide)]),
    shapeCast_apply _ hc (ix1 c) (ix3 c (0 : Fin 1) (0 : Fin 1)) (by
        rewrite [Shape.rowMajor_val_three, Shape.rowMajor_val_one]
        show (c.val * 1 + 0) * 1 + 0 = c.val
        omega),
    extractStridedSlice_apply off3 W hs3 (ix3 c (0 : Fin 1) (0 : Fin 1)) (ix3 c u v) (fun a => match a with
        | ⟨0, _⟩ => by show c.val = off3 0 + c.val; omega
        | ⟨1, _⟩ => by show u.val = off3 1 + 0; omega
        | ⟨2, _⟩ => by show v.val = off3 2 + 0; omega)]
  rfl

/-- Entry (n, c, i, j) of the reference's result: the nine taps over the padded input's 3×3 neighbourhood of (i, j) in
    channel c of batch n and that channel's nine weights, from the zero word. -/
theorem ref_at (x : FVec Ideal S32x384x32x32 .f32) (w : FVec Ideal S384x3x3 .f32) (n : Fin 32) (c : Fin 384) (i j : Fin 32) :
    val_main_v73 (F := Ideal) x w (ix4 n c i j)
      = conv9 (FloatOps.ofBits .f32 0x00000000#32)
          (fun u v => val_main_v0 (F := Ideal) x (ix4 n c (sh i u) (sh j v))) (fun u v => w (ix3 c u v)) := by
  refine (ref_tap (val_main_v65 (F := Ideal) x w) (val_main_v0 (F := Ideal) x) w ![0, 0, 2, 2] ![0, 2, 2] _ _ _ _ _ 2 2 rfl rfl rfl rfl rfl rfl rfl n c i j).trans (tap_congr ?_ rfl)
  refine (ref_tap (val_main_v57 (F := Ideal) x w) (val_main_v0 (F := Ideal) x) w ![0, 0, 2, 1] ![0, 2, 1] _ _ _ _ _ 2 1 rfl rfl rfl rfl rfl rfl rfl n c i j).trans (tap_congr ?_ rfl)
  refine (ref_tap (val_main_v49 (F := Ideal) x w) (val_main_v0 (F := Ideal) x) w ![0, 0, 2, 0] ![0, 2, 0] _ _ _ _ _ 2 0 rfl rfl rfl rfl rfl rfl rfl n c i j).trans (tap_congr ?_ rfl)
  refine (ref_tap (val_main_v41 (F := Ideal) x w) (val_main_v0 (F := Ideal) x) w ![0, 0, 1, 2] ![0, 1, 2] _ _ _ _ _ 1 2 rfl rfl rfl rfl rfl rfl rfl n c i j).trans (tap_congr ?_ rfl)
  refine (ref_tap (val_main_v33 (F := Ideal) x w) (val_main_v0 (F := Ideal) x) w ![0, 0, 1, 1] ![0, 1, 1] _ _ _ _ _ 1 1 rfl rfl rfl rfl rfl rfl rfl n c i j).trans (tap_congr ?_ rfl)
  refine (ref_tap (val_main_v25 (F := Ideal) x w) (val_main_v0 (F := Ideal) x) w ![0, 0, 1, 0] ![0, 1, 0] _ _ _ _ _ 1 0 rfl rfl rfl rfl rfl rfl rfl n c i j).trans (tap_congr ?_ rfl)
  refine (ref_tap (val_main_v17 (F := Ideal) x w) (val_main_v0 (F := Ideal) x) w ![0, 0, 0, 2] ![0, 0, 2] _ _ _ _ _ 0 2 rfl rfl rfl rfl rfl rfl rfl n c i j).trans (tap_congr ?_ rfl)
  refine (ref_tap (val_main_v9 (F := Ideal) x w) (val_main_v0 (F := Ideal) x) w ![0, 0, 0, 1] ![0, 0, 1] _ _ _ _ _ 0 1 rfl rfl rfl rfl rfl rfl rfl n c i j).trans (tap_congr ?_ rfl)
  refine (ref_tap (val_main_v1 (F := Ideal)) (val_main_v0 (F := Ideal) x) w ![0, 0, 0, 0] ![0, 0, 0] _ _ _ _ _ 0 0 rfl rfl rfl rfl rfl rfl rfl n c i j).trans (tap_congr ?_ rfl)
  exact (val_main_v1_apply (F := Ideal) (ix4 n c i j)).trans (val_main_cst_apply (F := Ideal) _)

end Cert.ReferenceIdeal.RefValue

end
-- ==== Proof.Bridge.lean ====
/-
  The two results are one function of the inputs.

  Entry (n, c, i, j) of the reference's result is the nine taps over its channel-first padded array at
  (n, c, u + i, v + j); entry (n, c, i, j) of the kernel's output is, through the final move of the channel axis,
  entry (n, i, j, c) of the channel-last result, the nine taps over the channel-last padded array at
  (n, u + i, v + j, c). The two padded arrays hold the same entries at corresponding indices, the weights and the
  starting zero are the same, and the taps come in the same order: the results are equal entry by entry, with no
  appeal to any law of the extended reals and to no bound on the inputs.
-/
import proofs.«167648_j171798692025_1_alg».proof.Proof.KernelValue
import proofs.«167648_j171798692025_1_alg».proof.Proof.RefValue

noncomputable section

namespace Cert.Proof.Bridge

open Idealize.ShloMosaic Idealize.ShloMosaic.ValueIdx Cert.AdderConv

/-- The kernel's channel-last padded array at (n, a, b, c) is the reference's channel-first padded array at (n, c, a, b). -/
theorem slab_eq (x : FVec Ideal Cert.KernelIdeal.S32x384x32x32 .f32) (n : Fin 32) (a b : Fin 34) (c : Fin 384) :
    Cert.KernelIdeal.KValue.slabOf (F := Ideal) x (ix4 n a b c)
      = Cert.ReferenceIdeal.Read.val_main_v0 (F := Ideal) x (ix4 n c a b) := by
  unfold Cert.KernelIdeal.KValue.slabOf Cert.ReferenceIdeal.Read.val_main_v0
  exact pad_channel_last x _ _ _ _ _ n a b c

/-- The reference's result is the kernel's output, as functions of the two inputs. -/
theorem result_eq (x : FVec Ideal Cert.KernelIdeal.S32x384x32x32 .f32) (w : FVec Ideal Cert.KernelIdeal.S384x3x3 .f32) :
    Cert.ReferenceIdeal.Read.val_main_v73 (F := Ideal) x w = Cert.KernelIdeal.KValue.result (F := Ideal) x w := by
  funext y
  obtain ⟨n, c, i, j, rfl⟩ : ∃ (n : Fin 32) (c : Fin 384) (i j : Fin 32), y = ix4 n c i j :=
    ⟨y 0, y 1, y 2, y 3, eq_ix4 y⟩
  rw [Cert.ReferenceIdeal.RefValue.ref_at]
  unfold Cert.KernelIdeal.KValue.result
  rw [transpose_apply [0, 3, 1, 2] _ _ (ix4 n c i j) (ix4 n i j c) (fun d => match d with
      | ⟨0, _⟩ => rfl
      | ⟨1, _⟩ => rfl
      | ⟨2, _⟩ => rfl
      | ⟨3, _⟩ => rfl),
    Cert.KernelIdeal.KValue.convLast_ix]
  unfold Cert.KernelIdeal.KValue.convAt
  exact conv9_congr (fun u v => (slab_eq x n (sh i u) (sh j v) c).symm) (fun u v => rfl)

end Cert.Proof.Bridge

end
-- ==== Proof.lean ====
/-
  A depthwise L1 ("adder") filter, 3×3 window, stride 1, zero padding 1, one filter per channel, over
  x : 32 × 384 × 32 × 32 (batch, channel, row, column) and w : 384 × 3 × 3:

      out (n, c, i, j) = − Σ_{u, v} | xpad (n, c, i + u, j + v) − w (c, u, v) |,

  computed by both programs as nine subtractions from zero in row-major order of the window.

  The kernel moves the channel axis last, pads the image, and runs a grid of 32 points, one per batch entry; each
  point holds its 34 × 34 × 384 slab and all the weights and stores a 32 × 32 × 384 block of nine taps; the result is
  moved back to channel-first. The reference pads the channel-first array and subtracts nine shifted sub-images.
  The two compute the same nine-tap expression of the same entries, so the value claim needs no law of the
  extended reals and never opens the precondition: only the entries read have to be matched, which is that the
  two orders of padding and moving the channel axis agree.

  The frames of the two kernel programs are the generated ones; the reference's frame is its generated run with
  the result dropped; the idealization rewrote nothing, so its ledger is empty.
-/
import proofs.«167648_j171798692025_1_alg».proof.Defs
import proofs.«167648_j171798692025_1_alg».proof.Proof.Gen.Kernel
import proofs.«167648_j171798692025_1_alg».proof.Proof.Gen.Kernel.Skeleton
import proofs.«167648_j171798692025_1_alg».proof.Proof.Gen.Kernel.Launch
import proofs.«167648_j171798692025_1_alg».proof.Proof.Gen.Kernel.Points
import proofs.«167648_j171798692025_1_alg».proof.Proof.Gen.Kernel.Frame
import proofs.«167648_j171798692025_1_alg».proof.Proof.Gen.KernelIdeal
import proofs.«167648_j171798692025_1_alg».proof.Proof.Gen.KernelIdeal.Skeleton
import proofs.«167648_j171798692025_1_alg».proof.Proof.Gen.KernelIdeal.Launch
import proofs.«167648_j171798692025_1_alg».proof.Proof.Gen.KernelIdeal.Points
import proofs.«167648_j171798692025_1_alg».proof.Proof.Gen.KernelIdeal.Frame
import proofs.«167648_j171798692025_1_alg».proof.Proof.Gen.ReferenceIdeal
import proofs.«167648_j171798692025_1_alg».proof.Proof.Gen.Pre_finite_inputs
import proofs.«167648_j171798692025_1_alg».proof.Proof.Gen.ReferenceIdeal.Run
import proofs.«167648_j171798692025_1_alg».proof.Proof.Gen.ReferenceIdeal.Read
import proofs.«167648_j171798692025_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its inputs as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its inputs as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From inputs that agree, the kernel's output buffer and the reference's result buffer end at the same array: the
    nine-tap filter of the inputs. -/
theorem algebraic : Cert.algebraic_KernelIdeal_ReferenceIdeal := by
  intro m ρ m' ρ' _ hagree
  refine ⟨fun c => Cert.KernelIdeal.KValue.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v73_eq, (hagree c).1, (hagree c).2]
  exact Cert.Proof.Bridge.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
